-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x4 : Shape := ⟨2, ![1000000, 4]⟩
abbrev S2x16000000 : Shape := ⟨2, ![2, 16000000]⟩
abbrev S16000000x3 : Shape := ⟨2, ![16000000, 3]⟩
abbrev S3x1 : Shape := ⟨2, ![3, 1]⟩
abbrev S1 : Shape := ⟨1, ![1]⟩
abbrev S5x1 : Shape := ⟨2, ![5, 1]⟩
abbrev S_ : Shape := ⟨0, ![]⟩

class Facts : Prop where
  bcast_S_S1000000x4 : S_.BroadcastsInDim S1000000x4 (![] : Fin 0 → Fin S1000000x4.rank)
  reducesTo_S1000000x4_S_d0_1 : S1000000x4.ReducesTo [0, 1] S_
  h_S_ : 0 < S_.numel
  bcast_S_S16000000x3 : S_.BroadcastsInDim S16000000x3 (![] : Fin 0 → Fin S16000000x3.rank)
  reducesTo_S16000000x3_S_d0_1 : S16000000x3.ReducesTo [0, 1] S_
  bcast_S_S3x1 : S_.BroadcastsInDim S3x1 (![] : Fin 0 → Fin S3x1.rank)
  reducesTo_S3x1_S_d0_1 : S3x1.ReducesTo [0, 1] S_
  bcast_S_S1 : S_.BroadcastsInDim S1 (![] : Fin 0 → Fin S1.rank)
  reducesTo_S1_S_d0 : S1.ReducesTo [0] S_
  bcast_S_S5x1 : S_.BroadcastsInDim S5x1 (![] : Fin 0 → Fin S5x1.rank)
  reducesTo_S5x1_S_d0_1 : S5x1.ReducesTo [0, 1] S_

variable [Facts]

def fn_part1 {F : FTy → Type} [FloatOps F] (main_arg5 : FVec F S5x1 .f32) (main_arg6 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S5x1 .f32 := Host.absf main_arg5
  let main_cst_6 : FVec F S_ .f32 := constant S_ .f32 0x7F800000#32
  let main_v20 : FVec F S5x1 .f32 := broadcastInDim S5x1 ![] bcast_S_S5x1 main_cst_6
  let main_v21 : IVec S5x1 1 := cmpf .olt main_v19 main_v20
  let main_c_7 : IVec S_ 1 := constantI S_ 1 1#1
  let main_v22 : IVec S_ 1 := (fun x v => Host.reduce IntOp.andi x v reducesTo_S5x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S1000000x4 .f32) (main_arg1 : IVec S2x16000000 32) (main_arg2 : FVec F S16000000x3 .f32) (main_arg3 : FVec F S3x1 .f32) (main_arg4 : FVec F S1 .f32) (main_arg5 : FVec F S5x1 .f32) (main_arg6 : FVec F S1 .f32) : IVec S_ 1 :=
  let main_v0 : FVec F S1000000x4 .f32 := Host.absf main_arg0
  let main_cst : FVec F S_ .f32 := constant S_ .f32 0x7F800000#32
  let main_v1 : FVec F S1000000x4 .f32 := broadcastInDim S1000000x4 ![] bcast_S_S1000000x4 main_cst
  let main_v2 : IVec S1000000x4 1 := cmpf .olt main_v0 main_v1
  let main_c : IVec S_ 1 := constantI S_ 1 1#1
  let main_v3 : IVec S_ 1 := (fun x v => Host.reduce IntOp.andi x v reducesTo_S1000000x4_S_d0_1 h_S_) main_v2 main_c
  let main_v4 : FVec F S16000000x3 .f32 := Host.absf main_arg2
  let main_cst_0 : FVec F S_ .f32 := constant S_ .f32 0x7F800000#32
  let main_v5 : FVec F S16000000x3 .f32 := broadcastInDim S16000000x3 ![] bcast_S_S16000000x3 main_cst_0
  let main_v6 : IVec S16000000x3 1 := cmpf .olt main_v4 main_v5
  let main_c_1 : IVec S_ 1 := constantI S_ 1 1#1
  let main_v7 : IVec S_ 1 := (fun x v => Host.reduce IntOp.andi x v reducesTo_S16000000x3_S_d0_1 h_S_) main_v6 main_c_1
  let main_v8 : IVec S_ 1 := andi main_v3 main_v7
  let main_v9 : FVec F S3x1 .f32 := Host.absf main_arg3
  let main_cst_2 : FVec F S_ .f32 := constant S_ .f32 0x7F800000#32
  let main_v10 : FVec F S3x1 .f32 := broadcastInDim S3x1 ![] bcast_S_S3x1 main_cst_2
  let main_v11 : IVec S3x1 1 := cmpf .olt main_v9 main_v10
  let main_c_3 : IVec S_ 1 := constantI S_ 1 1#1
  let main_v12 : IVec S_ 1 := (fun x v => Host.reduce IntOp.andi x v reducesTo_S3x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_v13 main_v16
-- ==== Kernel.lean ====
abbrev S1000000x4 : Shape := ⟨2, ![1000000, 4]⟩
abbrev S2x16000000 : Shape := ⟨2, ![2, 16000000]⟩
abbrev S16000000x3 : Shape := ⟨2, ![16000000, 3]⟩
abbrev S3x1 : Shape := ⟨2, ![3, 1]⟩
abbrev S1 : Shape := ⟨1, ![1]⟩
abbrev S5x1 : Shape := ⟨2, ![5, 1]⟩
abbrev S1x1 : Shape := ⟨2, ![1, 1]⟩
abbrev S16000000x1 : Shape := ⟨2, ![16000000, 1]⟩
abbrev S8000x3 : Shape := ⟨2, ![8000, 3]⟩
abbrev S8000x1 : Shape := ⟨2, ![8000, 1]⟩
abbrev S1x16000000 : Shape := ⟨2, ![1, 16000000]⟩
abbrev S16000000 : Shape := ⟨1, ![16000000]⟩
abbrev S_ : Shape := ⟨0, ![]⟩
abbrev S1000000x1 : Shape := ⟨2, ![1000000, 1]⟩
abbrev S4000x4 : Shape := ⟨2, ![4000, 4]⟩
abbrev S4000x1 : Shape := ⟨2, ![4000, 1]⟩
abbrev S4000x5 : Shape := ⟨2, ![4000, 5]⟩

abbrev nBuf : Space → Nat
  | .hbm => 17
  | .vmem => 14
  | .smem => 0
  | _ => 0

abbrev bufTy : (tb : Table) → Fin (tcTables nBuf tb) → BufTy
  | .hbm, ⟨0, _⟩ => ⟨S1000000x4, .f32⟩
  | .hbm, ⟨1, _⟩ => ⟨S2x16000000, .i32⟩
  | .hbm, ⟨2, _⟩ => ⟨S16000000x3, .f32⟩
  | .hbm, ⟨3, _⟩ => ⟨S3x1, .f32⟩
  | .hbm, ⟨4, _⟩ => ⟨S1, .f32⟩
  | .hbm, ⟨5, _⟩ => ⟨S5x1, .f32⟩
  | .hbm, ⟨6, _⟩ => ⟨S1, .f32⟩
  | .hbm, ⟨7, _⟩ => ⟨S1x1, .f32⟩
  | .hbm, ⟨8, _⟩ => ⟨S16000000x1, .f32⟩
  | .hbm, ⟨9, _⟩ => ⟨S1x16000000, .i32⟩
  | .hbm, ⟨10, _⟩ => ⟨S16000000, .i32⟩
  | .hbm, ⟨11, _⟩ => ⟨S_, .f32⟩
  | .hbm, ⟨12, _⟩ => ⟨S1000000x1, .f32⟩
  | .hbm, ⟨13, _⟩ => ⟨S16000000x1, .i32⟩
  | .hbm, ⟨14, _⟩ => ⟨S1000000x1, .f32⟩
  | .hbm, ⟨15, _⟩ => ⟨S1x1, .f32⟩
  | .hbm, ⟨16, _⟩ => ⟨S1000000x1, .f32⟩
  | .local _ .vmem, ⟨0, _⟩ => ⟨S8000x3, .f32⟩
  | .local _ .vmem, ⟨1, _⟩ => ⟨S8000x3, .f32⟩
  | .local _ .vmem, ⟨2, _⟩ => ⟨S3x1, .f32⟩
  | .local _ .vmem, ⟨3, _⟩ => ⟨S1x1, .f32⟩
  | .local _ .vmem, ⟨4, _⟩ => ⟨S8000x1, .f32⟩
  | .local _ .vmem, ⟨5, _⟩ => ⟨S8000x1, .f32⟩
  | .local _ .vmem, ⟨6, _⟩ => ⟨S4000x4, .f32⟩
  | .local _ .vmem, ⟨7, _⟩ => ⟨S4000x4, .f32⟩
  | .local _ .vmem, ⟨8, _⟩ => ⟨S4000x1, .f32⟩
  | .local _ .vmem, ⟨9, _⟩ => ⟨S4000x1, .f32⟩
  | .local _ .vmem, ⟨10, _⟩ => ⟨S5x1, .f32⟩
  | .local _ .vmem, ⟨11, _⟩ => ⟨S1x1, .f32⟩
  | .local _ .vmem, ⟨12, _⟩ => ⟨S4000x1, .f32⟩
  | .local _ .vmem, ⟨13, _⟩ => ⟨S4000x1, .f32⟩
  | _, _ => ⟨S1000000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![2000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S1_S1x1 : S1.ShapeCasts S1x1
  inb_S8000x3_S8000x3_0_0 : ∀ a, (![0, 0] : Fin 2 → Nat) a + S8000x3.size a ≤ S8000x3.size a
  h_S8000x3 : 0 < S8000x3.numel
  inb_S3x1_S3x1_0_0 : ∀ a, (![0, 0] : Fin 2 → Nat) a + S3x1.size a ≤ S3x1.size a
  h_S3x1 : 0 < S3x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  slices_S2x16000000_S1x16000000_1_0 : S2x16000000.Slices ![1, 0] S1x16000000
  shapeCasts_S1x16000000_S16000000 : S1x16000000.ShapeCasts S16000000
  bcast_S_S1000000x1 : S_.BroadcastsInDim S1000000x1 (![] : Fin 0 → Fin S1000000x1.rank)
  bcast_S16000000_S16000000x1_0 : S16000000.BroadcastsInDim S16000000x1 (![0] : Fin 1 → Fin S16000000x1.rank)
  inb_S4000x4_S4000x4_0_0 : ∀ a, (![0, 0] : Fin 2 → Nat) a + S4000x4.size a ≤ S4000x4.size a
  h_S4000x4 : 0 < S4000x4.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S5x1_S5x1_0_0 : ∀ a, (![0, 0] : Fin 2 → Nat) a + S5x1.size a ≤ S5x1.size a
  h_S5x1 : 0 < S5x1.numel
  slices_S4000x4_o0_3_S4000x1 : S4000x4.Slices ![0, 3] S4000x1
  concatenates_S4000x4_S4000x1_S4000x5_d1 : Shape.Concatenates [S4000x4, S4000x1] S4000x5 1
  broadcasts_S1x1_S4000x1 : S1x1.Broadcasts S4000x1
  slices_S4000x4_o0_0_S4000x1 : S4000x4.Slices ![0, 0] S4000x1
  dot_S8000x3_S3x1_S8000x1_1_0_0_1_n_n_wf : DotDims.WF S8000x3 S3x1 S8000x1 [1] [0] [0] [1] [] []
  scatter_S1000000x1_S16000000x1_S16000000x1_1_0_0_1_wf : ScatterDims.WF S1000000x1 S16000000x1 S16000000x1 [1] [0] [0] 1
  dot_S4000x5_S5x1_S4000x1_1_0_0_1_n_n_wf : DotDims.WF S4000x5 S5x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S16000000x3.size a
  hwx0_0 : ∀ i : grid0.Coords, EltTy.bits .f32 = 32 ∨ (Rect.block (s := S16000000x3) S8000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x1.size a ≤ S3x1.size a
  hwx0_1 : ∀ i : grid0.Coords, EltTy.bits .f32 = 32 ∨ (Rect.block (s := S3x1) S3x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8000x1.size a ≤ S16000000x1.size a
  hwx0_3 : ∀ i : grid0.Coords, EltTy.bits .f32 = 32 ∨ (Rect.block (s := S16000000x1) S8000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x4.size a ≤ S1000000x4.size a
  hwx1_0 : ∀ i : grid1.Coords, EltTy.bits .f32 = 32 ∨ (Rect.block (s := S1000000x4) S4000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S1000000x1.size a
  hwx1_1 : ∀ i : grid1.Coords, EltTy.bits .f32 = 32 ∨ (Rect.block (s := S1000000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x1.size a ≤ S5x1.size a
  hwx1_2 : ∀ i : grid1.Coords, EltTy.bits .f32 = 32 ∨ (Rect.block (s := S5x1) S5x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x1.size a ≤ S1000000x1.size a
  hwx1_4 : ∀ i : grid1.Coords, EltTy.bits .f32 = 32 ∨ (Rect.block (s := S1000000x1) S4000x1.size (cc1_transform_4 i) (hinb1_4 i)).WholeWords (EltTy.packing .f32)

variable [Facts₀]

def dot_S8000x3_S3x1_S8000x1_1_0_0_1_n_n : DotDims S8000x3 S3x1 S8000x1 where
  lhsContracting := [1]
  rhsContracting := [0]
  lhsNonContracting := [0]
  rhsNonContracting := [1]
  lhsBatch := []
  rhsBatch := []
  wf := dot_S8000x3_S3x1_S8000x1_1_0_0_1_n_n_wf
def scatter_S1000000x1_S16000000x1_S16000000x1_1_0_0_1 : ScatterDims S1000000x1 S16000000x1 S16000000x1 where
  updateWindowDims := [1]
  insertedWindowDims := [0]
  scatterDimsToOperandDims := [0]
  indexVectorDim := 1
  wf := scatter_S1000000x1_S16000000x1_S16000000x1_1_0_0_1_wf
def dot_S4000x5_S5x1_S4000x1_1_0_0_1_n_n : DotDims S4000x5 S5x1 S4000x1 where
  lhsContracting := [1]
  rhsContracting := [0]
  lhsNonContracting := [0]
  rhsNonContracting := [1]
  lhsBatch := []
  rhsBatch := []
  wf := dot_S4000x5_S5x1_S4000x1_1_0_0_1_n_n_wf

abbrev win0_0 : Pipeline.Window sig grid0 :=
  Pipeline.Window.ofSpec (Memref.whole main_arg2) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S3x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S4000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S5x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S4000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S1000000x4 : Shape := ⟨2, ![1000000, 4]⟩
abbrev S2x16000000 : Shape := ⟨2, ![2, 16000000]⟩
abbrev S16000000x3 : Shape := ⟨2, ![16000000, 3]⟩
abbrev S3x1 : Shape := ⟨2, ![3, 1]⟩
abbrev S1 : Shape := ⟨1, ![1]⟩
abbrev S5x1 : Shape := ⟨2, ![5, 1]⟩
abbrev S16000000x1 : Shape := ⟨2, ![16000000, 1]⟩
abbrev S1x1 : Shape := ⟨2, ![1, 1]⟩
abbrev S1x16000000 : Shape := ⟨2, ![1, 16000000]⟩
abbrev S16000000 : Shape := ⟨1, ![16000000]⟩
abbrev S_ : Shape := ⟨0, ![]⟩
abbrev S1000000x1 : Shape := ⟨2, ![1000000, 1]⟩
abbrev S1000000x5 : Shape := ⟨2, ![1000000, 5]⟩

abbrev nBuf : Space → Nat
  | .hbm => 26
  | .vmem => 0
  | .smem => 0
  | _ => 0

abbrev bufTy : (tb : Table) → Fin (tcTables nBuf tb) → BufTy
  | .hbm, ⟨0, _⟩ => ⟨S1000000x4, .f32⟩
  | .hbm, ⟨1, _⟩ => ⟨S2x16000000, .i32⟩
  | .hbm, ⟨2, _⟩ => ⟨S16000000x3, .f32⟩
  | .hbm, ⟨3, _⟩ => ⟨S3x1, .f32⟩
  | .hbm, ⟨4, _⟩ => ⟨S1, .f32⟩
  | .hbm, ⟨5, _⟩ => ⟨S5x1, .f32⟩
  | .hbm, ⟨6, _⟩ => ⟨S1, .f32⟩
  | .hbm, ⟨7, _⟩ => ⟨S16000000x1, .f32⟩
  | .hbm, ⟨8, _⟩ => ⟨S1x1, .f32⟩
  | .hbm, ⟨9, _⟩ => ⟨S16000000x1, .f32⟩
  | .hbm, ⟨10, _⟩ => ⟨S16000000x1, .f32⟩
  | .hbm, ⟨11, _⟩ => ⟨S1x16000000, .i32⟩
  | .hbm, ⟨12, _⟩ => ⟨S16000000, .i32⟩
  | .hbm, ⟨13, _⟩ => ⟨S_, .f32⟩
  | .hbm, ⟨14, _⟩ => ⟨S1000000x1, .f32⟩
  | .hbm, ⟨15, _⟩ => ⟨S16000000x1, .i32⟩
  | .hbm, ⟨16, _⟩ => ⟨S1000000x1, .f32⟩
  | .hbm, ⟨17, _⟩ => ⟨S1000000x1, .f32⟩
  | .hbm, ⟨18, _⟩ => ⟨S1000000x1, .f32⟩
  | .hbm, ⟨19, _⟩ => ⟨S1000000x5, .f32⟩
  | .hbm, ⟨20, _⟩ => ⟨S1000000x1, .f32⟩
  | .hbm, ⟨21, _⟩ => ⟨S1x1, .f32⟩
  | .hbm, ⟨22, _⟩ => ⟨S1000000x1, .f32⟩
  | .hbm, ⟨23, _⟩ => ⟨S1000000x1, .f32⟩
  | .hbm, ⟨24, _⟩ => ⟨S1000000x1, .f32⟩
  | .hbm, ⟨25, _⟩ => ⟨S1000000x1, .f32⟩
  | _, _ => ⟨S1000000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S16000000x1_0_1 : S1x1.BroadcastsInDim S16000000x1 (![0, 1] : Fin 2 → Fin S16000000x1.rank)
  slices_S2x16000000_S1x16000000_1_0 : S2x16000000.Slices ![1, 0] S1x16000000
  shapeCasts_S1x16000000_S16000000 : S1x16000000.ShapeCasts S16000000
  bcast_S_S1000000x1 : S_.BroadcastsInDim S1000000x1 (![] : Fin 0 → Fin S1000000x1.rank)
  bcast_S16000000_S16000000x1_0 : S16000000.BroadcastsInDim S16000000x1 (![0] : Fin 1 → Fin S16000000x1.rank)
  slices_S1000000x4_S1000000x1_0_3 : S1000000x4.Slices ![0, 3] S1000000x1
  concatenates_S1000000x4_S1000000x1_S1000000x5_d1 : Shape.Concatenates [S1000000x4, S1000000x1] S1000000x5 1
  bcast_S1x1_S1000000x1_0_1 : S1x1.BroadcastsInDim S1000000x1 (![0, 1] : Fin 2 → Fin S1000000x1.rank)
  slices_S1000000x4_S1000000x1_0_0 : S1000000x4.Slices ![0, 0] S1000000x1
  dot_S16000000x3_S3x1_S16000000x1_1_0_0_1_n_n_wf : DotDims.WF S16000000x3 S3x1 S16000000x1 [1] [0] [0] [1] [] []
  scatter_S1000000x1_S16000000x1_S16000000x1_1_0_0_1_wf : ScatterDims.WF S1000000x1 S16000000x1 S16000000x1 [1] [0] [0] 1
  dot_S1000000x5_S5x1_S1000000x1_1_0_0_1_n_n_wf : DotDims.WF S1000000x5 S5x1 S1000000x1 [1] [0] [0] [1] [] []

variable [Facts₀]

def dot_S16000000x3_S3x1_S16000000x1_1_0_0_1_n_n : DotDims S16000000x3 S3x1 S16000000x1 where
  lhsContracting := [1]
  rhsContracting := [0]
  lhsNonContracting := [0]
  rhsNonContracting := [1]
  lhsBatch := []
  rhsBatch := []
  wf := dot_S16000000x3_S3x1_S16000000x1_1_0_0_1_n_n_wf
def scatter_S1000000x1_S16000000x1_S16000000x1_1_0_0_1 : ScatterDims S1000000x1 S16000000x1 S16000000x1 where
  updateWindowDims := [1]
  insertedWindowDims := [0]
  scatterDimsToOperandDims := [0]
  indexVectorDim := 1
  wf := scatter_S1000000x1_S16000000x1_S16000000x1_1_0_0_1_wf
def dot_S1000000x5_S5x1_S1000000x1_1_0_0_1_n_n : DotDims S1000000x5 S5x1 S1000000x1 where
  lhsContracting := [1]
  rhsContracting := [0]
  lhsNonContracting := [0]
  rhsNonContracting := [1]
  lhsBatch := []
  rhsBatch := []
  wf := dot_S1000000x5_S5x1_S1000000x1_1_0_0_1_n_n_wf

class Facts : Prop extends Facts₀ where

variable [Facts]
-- ==== Proof.Spec.lean ====
/-
  What the program computes, stated once for both sides, over the extended reals.

  A graph has 16 000 000 edges and 1 000 000 nodes. Each edge carries three attributes, each node four features.
  * The MESSAGE of an edge is the inner product of its three attributes with a weight column, plus a bias
    (`edgeMsg`; `msgArr` is the array of all the messages).
  * Every node AGGREGATES (adds up) the messages of the edges that point at it: a scatter-add, which both programs
    apply as one and the same host operation, so it is never opened here.
  * The UPDATE of a node contracts a row of five entries — its four features, then its aggregate scaled by the
    fourth feature (`joined`) — with a weight column, adds a bias, and adds the node's first feature
    (`nodeUpd`; `updArr` is the array of all the updates).
  Sums and products are the extended reals' own; no law beyond reading both sides entry by entry is needed, so no
  finiteness of the inputs is used.
-/
import Idealize.ShloMosaic.PureOps.Ideal
import Idealize.ShloMosaic.Lib.ValueIdx

noncomputable section

namespace Cert.Spec

open Idealize.ShloMosaic Idealize.ShloMosaic.ValueIdx
open scoped BigOperators

/-- One edge's message: `∑ₖ eₖ · wₖ + b` over its three attributes. -/
def edgeMsg (e w : Fin 3 → EReal) (b : EReal) : EReal := (∑ k : Fin 3, e k * w k) + b

/-- The row a node's update contracts: entries 0–3 are the node's features, entry 4 is `a · x₃`, the aggregate
    scaled by the fourth feature. -/
def joined (x : Fin 4 → EReal) (a : EReal) (k : Fin 5) : EReal :=
  if h : k.val < 4 then x ⟨k.val, h⟩ else a * x 3

/-- One node's result: `x₀ + (∑ₖ joinedₖ · wₖ + b)`. -/
def nodeUpd (x : Fin 4 → EReal) (a : EReal) (w : Fin 5 → EReal) (b : EReal) : EReal :=
  x 0 + ((∑ k : Fin 5, joined x a k * w k) + b)

/-- All the messages: entry `(e, 0)` is edge `e`'s message from row `e` of the attributes. -/
def msgArr (ea : (⟨2, ![16000000, 3]⟩ : Shape).Idx → EReal) (w : (⟨2, ![3, 1]⟩ : Shape).Idx → EReal) (b : EReal) :
    (⟨2, ![16000000, 1]⟩ : Shape).Idx → EReal :=
  fun i => edgeMsg (fun k => ea (ix2 (⟨(i 0).val, (i 0).isLt⟩ : Fin 16000000) k)) (fun k => w (ix2 k (0 : Fin 1))) b

/-- All the updates: entry `(n, 0)` is node `n`'s result from row `n` of the features and entry `(n, 0)` of the
    aggregates. -/
def updArr (x : (⟨2, ![1000000, 4]⟩ : Shape).Idx → EReal) (aggr : (⟨2, ![1000000, 1]⟩ : Shape).Idx → EReal)
    (w : (⟨2, ![5, 1]⟩ : Shape).Idx → EReal) (b : EReal) : (⟨2, ![1000000, 1]⟩ : Shape).Idx → EReal :=
  fun i => nodeUpd (fun j => x (ix2 (⟨(i 0).val, (i 0).isLt⟩ : Fin 1000000) j))
    (aggr (ix2 (⟨(i 0).val, (i 0).isLt⟩ : Fin 1000000) (0 : Fin 1))) (fun k => w (ix2 k (0 : Fin 1))) b

end Cert.Spec

end
-- ==== Proof.EdgeValue.lean ====
/-
  The edge-message region, read as values at the extended reals.

  The region's grid has 2000 points; point `t` takes rows `8000·t … 8000·t + 7999` of the attributes, the whole
  weight column and the 1×1 bias, and writes back rows `8000·t …` of the messages. The body multiplies its 8000×3 block
  by the 3×1 column into a zero accumulator — at the extended reals the plain sum over the three attributes — and adds the
  bias spread down the rows: entry `(p, 0)` of what it stores is `Spec.edgeMsg` of row `p` of the block. Rows of the
  block are rows of the array, the 2000 blocks tile the message array, so the array ends as `Spec.msgArr`.
-/
import proofs.«143977_j85306640433889_1_alg».proof.Proof.Gen.KernelIdeal.Frame
import proofs.«143977_j85306640433889_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.EdgeValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's product, read at an index -/

theorem lhs_ax0 (i : S8000x1.Idx) (q : dot_S8000x3_S3x1_S8000x1_1_0_0_1_n_n.contr.Idx) :
    (dot_S8000x3_S3x1_S8000x1_1_0_0_1_n_n.lhsIdx i q 0).val = (i 0).val := by
  unfold DotDims.lhsIdx
  rw [dif_neg (show ¬(0 : Fin S8000x3.rank) ∈ dot_S8000x3_S3x1_S8000x1_1_0_0_1_n_n.lhsBatch by decide), dif_pos (show (0 : Fin S8000x3.rank) ∈ dot_S8000x3_S3x1_S8000x1_1_0_0_1_n_n.lhsNonContracting by decide)]
  rfl
theorem lhs_ax1 (i : S8000x1.Idx) (q : dot_S8000x3_S3x1_S8000x1_1_0_0_1_n_n.contr.Idx) :
    (dot_S8000x3_S3x1_S8000x1_1_0_0_1_n_n.lhsIdx i q 1).val = (q ⟨0, by decide⟩).val :=
  dot_S8000x3_S3x1_S8000x1_1_0_0_1_n_n.lhsIdx_val_of_single rfl i q
theorem rhs_ax0 (i : S8000x1.Idx) (q : dot_S8000x3_S3x1_S8000x1_1_0_0_1_n_n.contr.Idx) :
    (dot_S8000x3_S3x1_S8000x1_1_0_0_1_n_n.rhsIdx i q 0).val = (q ⟨0, by decide⟩).val :=
  dot_S8000x3_S3x1_S8000x1_1_0_0_1_n_n.rhsIdx_val_of_single rfl i q
theorem rhs_ax1 (i : S8000x1.Idx) (q : dot_S8000x3_S3x1_S8000x1_1_0_0_1_n_n.contr.Idx) :
    (dot_S8000x3_S3x1_S8000x1_1_0_0_1_n_n.rhsIdx i q 1).val = (i 1).val := by
  unfold DotDims.rhsIdx
  rw [dif_neg (show ¬(1 : Fin S3x1.rank) ∈ dot_S8000x3_S3x1_S8000x1_1_0_0_1_n_n.rhsBatch by decide), dif_pos (show (1 : Fin S3x1.rank) ∈ dot_S8000x3_S3x1_S8000x1_1_0_0_1_n_n.rhsNonContracting by decide)]
  rfl

/-- The block times the column, into zero: row `p`'s three attributes against the three weights. -/
theorem product_apply (x0 : FVec Ideal S8000x3 .f32) (x1 : FVec Ideal S3x1 .f32) (y : S8000x1.Idx) :
    matmul (F := Ideal) (φ₁ := .f32) (φ₂ := .f32) dot_S8000x3_S3x1_S8000x1_1_0_0_1_n_n none x0 x1 (constant S8000x1 .f32 0x00000000#32) y
      = ∑ k : Fin 3, x0 (ix2 (⟨(y 0).val, (y 0).isLt⟩ : Fin 8000) k) * x1 (ix2 k (0 : Fin 1)) := by
  simp only [matmul]
  rw [Ideal.matmul_constant_zero_apply, ← Equiv.sum_comp (contrEquiv1 dot_S8000x3_S3x1_S8000x1_1_0_0_1_n_n 3 rfl rfl).symm]
  refine Finset.sum_congr rfl fun k _ => ?_
  have hk := contrEquiv1_symm_val dot_S8000x3_S3x1_S8000x1_1_0_0_1_n_n 3 rfl rfl k
  have el : dot_S8000x3_S3x1_S8000x1_1_0_0_1_n_n.lhsIdx y ((contrEquiv1 dot_S8000x3_S3x1_S8000x1_1_0_0_1_n_n 3 rfl rfl).symm k) = ix2 (⟨(y 0).val, (y 0).isLt⟩ : Fin 8000) k := funext fun a => Fin.ext (by
    match a with
    | ⟨0, _⟩ => exact lhs_ax0 _ _
    | ⟨1, _⟩ => exact (lhs_ax1 _ _).trans hk)
  have er : dot_S8000x3_S3x1_S8000x1_1_0_0_1_n_n.rhsIdx y ((contrEquiv1 dot_S8000x3_S3x1_S8000x1_1_0_0_1_n_n 3 rfl rfl).symm k) = ix2 k (0 : Fin 1) := funext fun a => Fin.ext (by
    match a with
    | ⟨0, _⟩ => exact (rhs_ax0 _ _).trans hk
    | ⟨1, _⟩ => exact (rhs_ax1 _ _).trans (by show (y 1).val = 0; have h1 : (y 1).val < 1 := (y 1).isLt; omega))
  rw [el, er]

/-- What the body stores, at row `p`: that row's message. -/
theorem stored_apply (x0 : Vec Ideal S8000x3 .f32) (x1 : Vec Ideal S3x1 .f32) (x2 : Vec Ideal S1x1 .f32) (y : S8000x1.Idx) :
    k0_pay1 (F := Ideal) x0 x1 x2 y
      = Cert.Spec.edgeMsg (fun k => x0 (ix2 (⟨(y 0).val, (y 0).isLt⟩ : Fin 8000) k)) (fun k => x1 (ix2 k (0 : Fin 1)))
          (x2 (ix2 (0 : Fin 1) (0 : Fin 1))) := by
  unfold k0_pay1 Cert.Spec.edgeMsg
  show matmul (F := Ideal) (φ₁ := .f32) (φ₂ := .f32) dot_S8000x3_S3x1_S8000x1_1_0_0_1_n_n none x0 x1 (constant S8000x1 .f32 0x00000000#32) y
      + broadcastTo S8000x1 (shapeCast S1x1 x2 shapeCasts_S1x1_S1x1) broadcasts_S1x1_S8000x1 y = _
  rw [product_apply, shapeCast_self,
    broadcastTo_apply x2 broadcasts_S1x1_S8000x1 y (ix2 (0 : Fin 1) (0 : Fin 1)) (fun a => by
      match a with
      | ⟨0, _⟩ => show 0 = if (1 : Nat) = 1 then 0 else _; rw [if_pos rfl]
      | ⟨1, _⟩ => show 0 = if (1 : Nat) = 1 then 0 else _; rw [if_pos rfl])]

/-! ## From the blocks to the array -/

section Region
variable (V : (c : Dev nD) → (b : Ref sig .tc) → Buf (Elt Ideal) ((c : Thread nD τ).loc b))

theorem zero_offsets : (![0, 0] : Fin 2 → Nat) = fun _ => 0 :=
  funext fun a => by match a with | ⟨0, _⟩ => rfl | ⟨1, _⟩ => rfl

/-- The index maps over the grid: the attribute and message windows move one block per point along the rows, the
    weight column and the bias stay put. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 2000 := lt_of_lt_of_eq t.isLt N_0

/-- Row `p` of point `t`'s attribute block is row `8000·t + p` of the attributes. -/
theorem attr_block (c : Dev nD) (t : Fin cfg0.N) (p : Fin 8000) (k : Fin 3) :
    iblk0 V c 0 t (ix2 p k)
      = V c main_arg2 (ix2 (⟨t.val * 8000 + p.val, by have := point_lt t; have := p.isLt; omega⟩ : Fin 16000000) k) := by
  obtain ⟨e0, e1, -⟩ := index_facts t
  show V c main_arg2 (((cfg0.win 0).blk t).view.emb (ix2 p k)) = _
  refine congrArg (V c main_arg2) ?_
  funext a; apply Fin.ext
  match a with
  | ⟨0, _⟩ => show win0_0.index t (0 : Fin 2) * 8000 + 1 * p.val = t.val * 8000 + p.val; rw [e0]; omega
  | ⟨1, _⟩ => show win0_0.index t (1 : Fin 2) * 3 + 1 * k.val = k.val; rw [e1]; omega

/-- Every point's weight block is the weight column. -/
theorem weight_block (c : Dev nD) (t : Fin cfg0.N) (k : Fin 3) :
    iblk0 V c 1 t (ix2 k (0 : Fin 1)) = V c main_arg3 (ix2 k (0 : Fin 1)) := by
  obtain ⟨-, -, e2, e3, -⟩ := index_facts t
  show V c main_arg3 (((cfg0.win 1).blk t).view.emb (ix2 k (0 : Fin 1))) = _
  refine congrArg (V c main_arg3) ?_
  funext a; apply Fin.ext
  match a with
  | ⟨0, _⟩ => show win0_1.index t (0 : Fin 2) * 3 + 1 * k.val = k.val; rw [e2]; omega
  | ⟨1, _⟩ => show win0_1.index t (1 : Fin 2) * 1 + 1 * 0 = 0; rw [e3]

/-- Every point's bias block is the 1×1 bias. -/
theorem bias_block (c : Dev nD) (t : Fin cfg0.N) :
    iblk0 V c 2 t (ix2 (0 : Fin 1) (0 : Fin 1)) = V c main_v0 (ix2 (0 : Fin 1) (0 : Fin 1)) := by
  obtain ⟨-, -, -, -, e4, e5, -⟩ := index_facts t
  show V c main_v0 (((cfg0.win 2).blk t).view.emb (ix2 (0 : Fin 1) (0 : Fin 1))) = _
  refine congrArg (V c main_v0) ?_
  funext a; apply Fin.ext
  match a with
  | ⟨0, _⟩ => show win0_2.index t (0 : Fin 2) * 1 + 1 * 0 = 0; rw [e4]
  | ⟨1, _⟩ => show win0_2.index t (1 : Fin 2) * 1 + 1 * 0 = 0; rw [e5]

/-- What point `t` writes back is block `t` of the array of messages. -/
theorem flushed_eq (c : Dev nD) (t : Fin cfg0.N) :
    (dat0 V c).flushed 3 t = ((cfg0.win 3).blk t).view.read (Elt Ideal)
      (Cert.Spec.msgArr (V c main_arg2) (V c main_arg3) (V c main_v0 (ix2 (0 : Fin 1) (0 : Fin 1)))) := by
  show (cfg0.win 3).cut (grid0.coords t) ((dat0 V c).after 3 t) = _
  rw [after0_3]
  unfold out0_3
  rw [View.canon_unit_zero zero_offsets]
  simp only [View.ld_unit_zero (S := S8000x3) zero_offsets, View.ld_unit_zero (S := S3x1) zero_offsets,
    View.ld_unit_zero (S := S1x1) zero_offsets]
  obtain ⟨-, -, -, -, -, -, e6, e7⟩ := index_facts t
  funext j
  show k0_pay1 (F := Ideal) (iblk0 V c 0 t) (iblk0 V c 1 t) (iblk0 V c 2 t) j
    = Cert.Spec.msgArr (V c main_arg2) (V c main_arg3) (V c main_v0 (ix2 (0 : Fin 1) (0 : Fin 1))) (((cfg0.win 3).blk t).view.emb j)
  refine (stored_apply _ _ _ j).trans ?_
  unfold Cert.Spec.msgArr
  refine congr (congr (congrArg Cert.Spec.edgeMsg ?_) ?_) ?_
  · funext k
    refine (attr_block V c t _ k).trans (congrArg (V c main_arg2) ?_)
    funext a; apply Fin.ext
    match a with
    | ⟨0, _⟩ =>
      show t.val * 8000 + (j 0).val = win0_3.index t (0 : Fin 2) * 8000 + 1 * (j 0).val
      rw [e6]; omega
    | ⟨1, _⟩ => rfl
  · funext k
    exact weight_block V c t k
  · exact bias_block V c t

/-- An index of the message array is in point `t`'s block iff each coordinate is in the block's range on its axis. -/
theorem mem_block (t : Fin cfg0.N) (i : S16000000x1.Idx) :
    i ∈ ((cfg0.win 3).blk t).view.set ↔ ∀ a : Fin 2, win0_3.index t a * S8000x1.size a ≤ (i a).val
      ∧ (i a).val < win0_3.index t a * S8000x1.size a + S8000x1.size a := by
  show i ∈ ((View.whole main_v1).slice (win0_3.rect t)).set ↔ _
  rw [View.set_slice_whole, Rect.mem_set_unit]
  exact Iff.rfl

/-- The blocks tile the message array: row `r` is in the block of point `r / 8000`. -/
theorem cover (i : S16000000x1.Idx) :
    ∃ t : Fin cfg0.N, (cfg0.win 3).flush t = true ∧ i ∈ ((cfg0.win 3).blk t).view.set := by
  have hi0 : (i 0).val < 16000000 := (i 0).isLt
  have hi1 : (i 1).val < 1 := (i 1).isLt
  have hN : cfg0.N = 2000 := N_0
  refine ⟨⟨(i 0).val / 8000, by rw [hN]; omega⟩, flush0_3 _, ?_⟩
  rw [mem_block]
  obtain ⟨-, -, -, -, -, -, e6, e7⟩ := index_facts ⟨(i 0).val / 8000, by rw [hN]; omega⟩
  intro a
  match a with
  | ⟨0, _⟩ =>
    show win0_3.index _ (0 : Fin 2) * 8000 ≤ (i 0).val ∧ (i 0).val < win0_3.index _ (0 : Fin 2) * 8000 + 8000
    rw [e6]; show (i 0).val / 8000 * 8000 ≤ (i 0).val ∧ (i 0).val < (i 0).val / 8000 * 8000 + 8000; omega
  | ⟨1, _⟩ =>
    show win0_3.index _ (1 : Fin 2) * 1 ≤ (i 1).val ∧ (i 1).val < win0_3.index _ (1 : Fin 2) * 1 + 1
    rw [e7]; omega

/-- The message array after the region: every edge's message, of the arrays as the region finds them. -/
theorem final (c : Dev nD) :
    (dat0 V c).arrAt 3 cfg0.N
      = Cert.Spec.msgArr (V c main_arg2) (V c main_arg3) (V c main_v0 (ix2 (0 : Fin 1) (0 : Fin 1))) :=
  (dat0 V c).arrAt_eq_of_cover 3 _ (fun t _ => flushed_eq V c t) cover

end Region

end Cert.KernelIdeal.EdgeValue

end
-- ==== Proof.NodeValue.lean ====
/-
  The node-update region, read as values at the extended reals.

  The region's grid has 250 points; point `t` takes rows `4000·t … 4000·t + 3999` of the features and of the
  aggregates, the whole weight column and the 1×1 bias, and writes back rows `4000·t …` of the result. The body scales
  the aggregate column by the fourth feature column, joins it to the four feature columns as a fifth, multiplies the
  4000×5 block by the 5×1 column into a zero accumulator — at the extended reals the plain sum over the five entries —,
  adds the bias spread down the rows, and adds the first feature column: entry `(p, 0)` of what it stores is
  `Spec.nodeUpd` of row `p`. Rows of the blocks are rows of the arrays, the 250 blocks tile the result, so the result ends
  as `Spec.updArr`.
-/
import proofs.«143977_j85306640433889_1_alg».proof.Proof.Gen.KernelIdeal.Frame
import proofs.«143977_j85306640433889_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.NodeValue

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The body's product, read at an index -/

theorem lhs_ax0 (i : S4000x1.Idx) (q : dot_S4000x5_S5x1_S4000x1_1_0_0_1_n_n.contr.Idx) :
    (dot_S4000x5_S5x1_S4000x1_1_0_0_1_n_n.lhsIdx i q 0).val = (i 0).val := by
  unfold DotDims.lhsIdx
  rw [dif_neg (show ¬(0 : Fin S4000x5.rank) ∈ dot_S4000x5_S5x1_S4000x1_1_0_0_1_n_n.lhsBatch by decide), dif_pos (show (0 : Fin S4000x5.rank) ∈ dot_S4000x5_S5x1_S4000x1_1_0_0_1_n_n.lhsNonContracting by decide)]
  rfl
theorem lhs_ax1 (i : S4000x1.Idx) (q : dot_S4000x5_S5x1_S4000x1_1_0_0_1_n_n.contr.Idx) :
    (dot_S4000x5_S5x1_S4000x1_1_0_0_1_n_n.lhsIdx i q 1).val = (q ⟨0, by decide⟩).val :=
  dot_S4000x5_S5x1_S4000x1_1_0_0_1_n_n.lhsIdx_val_of_single rfl i q
theorem rhs_ax0 (i : S4000x1.Idx) (q : dot_S4000x5_S5x1_S4000x1_1_0_0_1_n_n.contr.Idx) :
    (dot_S4000x5_S5x1_S4000x1_1_0_0_1_n_n.rhsIdx i q 0).val = (q ⟨0, by decide⟩).val :=
  dot_S4000x5_S5x1_S4000x1_1_0_0_1_n_n.rhsIdx_val_of_single rfl i q
theorem rhs_ax1 (i : S4000x1.Idx) (q : dot_S4000x5_S5x1_S4000x1_1_0_0_1_n_n.contr.Idx) :
    (dot_S4000x5_S5x1_S4000x1_1_0_0_1_n_n.rhsIdx i q 1).val = (i 1).val := by
  unfold DotDims.rhsIdx
  rw [dif_neg (show ¬(1 : Fin S5x1.rank) ∈ dot_S4000x5_S5x1_S4000x1_1_0_0_1_n_n.rhsBatch by decide), dif_pos (show (1 : Fin S5x1.rank) ∈ dot_S4000x5_S5x1_S4000x1_1_0_0_1_n_n.rhsNonContracting by decide)]
  rfl

/-- A 4000×5 block times the column, into zero: row `p`'s five entries against the five weights. -/
theorem product_apply (z : FVec Ideal S4000x5 .f32) (x3 : FVec Ideal S5x1 .f32) (y : S4000x1.Idx) :
    matmul (F := Ideal) (φ₁ := .f32) (φ₂ := .f32) dot_S4000x5_S5x1_S4000x1_1_0_0_1_n_n none z x3 (constant S4000x1 .f32 0x00000000#32) y
      = ∑ k : Fin 5, z (ix2 (⟨(y 0).val, (y 0).isLt⟩ : Fin 4000) k) * x3 (ix2 k (0 : Fin 1)) := by
  simp only [matmul]
  rw [Ideal.matmul_constant_zero_apply, ← Equiv.sum_comp (contrEquiv1 dot_S4000x5_S5x1_S4000x1_1_0_0_1_n_n 5 rfl rfl).symm]
  refine Finset.sum_congr rfl fun k _ => ?_
  have hk := contrEquiv1_symm_val dot_S4000x5_S5x1_S4000x1_1_0_0_1_n_n 5 rfl rfl k
  have el : dot_S4000x5_S5x1_S4000x1_1_0_0_1_n_n.lhsIdx y ((contrEquiv1 dot_S4000x5_S5x1_S4000x1_1_0_0_1_n_n 5 rfl rfl).symm k) = ix2 (⟨(y 0).val, (y 0).isLt⟩ : Fin 4000) k := funext fun a => Fin.ext (by
    match a with
    | ⟨0, _⟩ => exact lhs_ax0 _ _
    | ⟨1, _⟩ => exact (lhs_ax1 _ _).trans hk)
  have er : dot_S4000x5_S5x1_S4000x1_1_0_0_1_n_n.rhsIdx y ((contrEquiv1 dot_S4000x5_S5x1_S4000x1_1_0_0_1_n_n 5 rfl rfl).symm k) = ix2 k (0 : Fin 1) := funext fun a => Fin.ext (by
    match a with
    | ⟨0, _⟩ => exact (rhs_ax0 _ _).trans hk
    | ⟨1, _⟩ => exact (rhs_ax1 _ _).trans (by show (y 1).val = 0; have h1 : (y 1).val < 1 := (y 1).isLt; omega))
  rw [el, er]

/-! ## The joined row and the two feature columns -/

/-- The joined block at `(p, k)`: a feature for `k < 4`, the aggregate times the fourth feature at `k = 4`. -/
theorem joined_apply (x0 : Vec Ideal S4000x4 .f32) (x1 : Vec Ideal S4000x1 .f32) (p : Fin 4000) (k : Fin 5) :
    concatenate S4000x5 1 [⟨S4000x4, x0⟩, ⟨S4000x1, mulf (F := Ideal) (φ := .f32) (shapeCast S4000x1 x1 shapeCasts_S4000x1_S4000x1)
        (extractStridedSlice S4000x1 ![0, 3] x0 slices_S4000x4_o0_3_S4000x1)⟩] concatenates_S4000x4_S4000x1_S4000x5_d1 (ix2 p k)
      = Cert.Spec.joined (fun j => x0 (ix2 p j)) (x1 (ix2 p (0 : Fin 1))) k := by
  unfold Cert.Spec.joined
  by_cases hk : k.val < 4
  · rw [dif_pos hk]
    exact concatenate_pair_apply_left (1 : Fin S4000x5.rank) x0 _ concatenates_S4000x4_S4000x1_S4000x5_d1
      (ix2 p k) rfl (ix2 p (⟨k.val, hk⟩ : Fin 4)) (fun b => by match b with | ⟨0, _⟩ => rfl | ⟨1, _⟩ => rfl)
  · rw [dif_neg hk]
    have hk4 : k.val = 4 := by have := k.isLt; omega
    refine (concatenate_pair_apply_right (1 : Fin S4000x5.rank) x0 _ concatenates_S4000x4_S4000x1_S4000x5_d1
      (ix2 p k) rfl rfl (ix2 p (0 : Fin 1)) (fun b hb => by
        match b with
        | ⟨0, _⟩ => rfl
        | ⟨1, _⟩ => exact absurd rfl hb) (by show 0 + 4 = k.val; omega)).trans ?_
    rw [shapeCast_self]
    show x1 (ix2 p (0 : Fin 1)) * extractStridedSlice S4000x1 ![0, 3] x0 slices_S4000x4_o0_3_S4000x1 (ix2 p (0 : Fin 1)) = _
    rw [extractStridedSlice_apply ![0, 3] x0 slices_S4000x4_o0_3_S4000x1 (ix2 p (0 : Fin 1)) (ix2 p (3 : Fin 4)) (fun a => by
      match a with
      | ⟨0, _⟩ => show p.val = 0 + p.val; omega
      | ⟨1, _⟩ => rfl)]

/-- What the body stores, at row `p`: that row's update. -/
theorem stored_apply (x0 : Vec Ideal S4000x4 .f32) (x1 : Vec Ideal S4000x1 .f32) (x3 : Vec Ideal S5x1 .f32) (x4 : Vec Ideal S1x1 .f32)
    (y : S4000x1.Idx) :
    k1_pay1 (F := Ideal) x0 x1 x3 x4 y
      = Cert.Spec.nodeUpd (fun j => x0 (ix2 (⟨(y 0).val, (y 0).isLt⟩ : Fin 4000) j))
          (x1 (ix2 (⟨(y 0).val, (y 0).isLt⟩ : Fin 4000) (0 : Fin 1))) (fun k => x3 (ix2 k (0 : Fin 1)))
          (x4 (ix2 (0 : Fin 1) (0 : Fin 1))) := by
  unfold k1_pay1 Cert.Spec.nodeUpd
  show extractStridedSlice S4000x1 ![0, 0] x0 slices_S4000x4_o0_0_S4000x1 y
      + (matmul (F := Ideal) (φ₁ := .f32) (φ₂ := .f32) dot_S4000x5_S5x1_S4000x1_1_0_0_1_n_n none
            (concatenate S4000x5 1 [⟨S4000x4, x0⟩, ⟨S4000x1, mulf (F := Ideal) (φ := .f32) (shapeCast S4000x1 x1 shapeCasts_S4000x1_S4000x1)
              (extractStridedSlice S4000x1 ![0, 3] x0 slices_S4000x4_o0_3_S4000x1)⟩] concatenates_S4000x4_S4000x1_S4000x5_d1)
            x3 (constant S4000x1 .f32 0x00000000#32) y
          + broadcastTo S4000x1 (shapeCast S1x1 x4 shapeCasts_S1x1_S1x1) broadcasts_S1x1_S4000x1 y) = _
  rw [product_apply, shapeCast_self x4,
    broadcastTo_apply x4 broadcasts_S1x1_S4000x1 y (ix2 (0 : Fin 1) (0 : Fin 1)) (fun a => by
      match a with
      | ⟨0, _⟩ => show 0 = if (1 : Nat) = 1 then 0 else _; rw [if_pos rfl]
      | ⟨1, _⟩ => show 0 = if (1 : Nat) = 1 then 0 else _; rw [if_pos rfl]),
    extractStridedSlice_apply ![0, 0] x0 slices_S4000x4_o0_0_S4000x1 y (ix2 (⟨(y 0).val, (y 0).isLt⟩ : Fin 4000) (0 : Fin 4)) (fun a => by
      match a with
      | ⟨0, _⟩ => show (y 0).val = 0 + (y 0).val; omega
      | ⟨1, _⟩ => show 0 = 0 + (y 1).val; have h1 : (y 1).val < 1 := (y 1).isLt; omega)]
  refine congrArg (fun s => x0 (ix2 (⟨(y 0).val, (y 0).isLt⟩ : Fin 4000) (0 : Fin 4)) + (s + x4 (ix2 (0 : Fin 1) (0 : Fin 1))))
    (Finset.sum_congr rfl fun k _ => ?_)
  exact congrArg (· * x3 (ix2 k (0 : Fin 1))) (joined_apply x0 x1 (⟨(y 0).val, (y 0).isLt⟩ : Fin 4000) k)

/-! ## From the blocks to the array -/

section Region
variable (V : (c : Dev nD) → (b : Ref sig .tc) → Buf (Elt Ideal) ((c : Thread nD τ).loc b))

theorem zero_offsets : (![0, 0] : Fin 2 → Nat) = fun _ => 0 :=
  funext fun a => by match a with | ⟨0, _⟩ => rfl | ⟨1, _⟩ => rfl

/-- The index maps over the grid: the feature, aggregate and result windows move one block per point along the rows,
    the weight column and the bias stay put. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

theorem point_lt (t : Fin cfg1.N) : t.val < 250 := lt_of_lt_of_eq t.isLt N_1

/-- Row `p` of point `t`'s feature block is row `4000·t + p` of the features. -/
theorem feat_block (c : Dev nD) (t : Fin cfg1.N) (p : Fin 4000) (j : Fin 4) :
    iblk1 V c 0 t (ix2 p j)
      = V c main_arg0 (ix2 (⟨t.val * 4000 + p.val, by have := point_lt t; have := p.isLt; omega⟩ : Fin 1000000) j) := by
  obtain ⟨e0, e1, -⟩ := index_facts t
  show V c main_arg0 (((cfg1.win 0).blk t).view.emb (ix2 p j)) = _
  refine congrArg (V c main_arg0) ?_
  funext a; apply Fin.ext
  match a with
  | ⟨0, _⟩ => show win1_0.index t (0 : Fin 2) * 4000 + 1 * p.val = t.val * 4000 + p.val; rw [e0]; omega
  | ⟨1, _⟩ => show win1_0.index t (1 : Fin 2) * 4 + 1 * j.val = j.val; rw [e1]; omega

/-- Row `p` of point `t`'s aggregate block is row `4000·t + p` of the aggregates. -/
theorem aggr_block (c : Dev nD) (t : Fin cfg1.N) (p : Fin 4000) :
    iblk1 V c 1 t (ix2 p (0 : Fin 1))
      = V c main_v6 (ix2 (⟨t.val * 4000 + p.val, by have := point_lt t; have := p.isLt; omega⟩ : Fin 1000000) (0 : Fin 1)) := by
  obtain ⟨-, -, e2, e3, -⟩ := index_facts t
  show V c main_v6 (((cfg1.win 1).blk t).view.emb (ix2 p (0 : Fin 1))) = _
  refine congrArg (V c main_v6) ?_
  funext a; apply Fin.ext
  match a with
  | ⟨0, _⟩ => show win1_1.index t (0 : Fin 2) * 4000 + 1 * p.val = t.val * 4000 + p.val; rw [e2]; omega
  | ⟨1, _⟩ => show win1_1.index t (1 : Fin 2) * 1 + 1 * 0 = 0; rw [e3]

/-- Every point's weight block is the weight column. -/
theorem weight_block (c : Dev nD) (t : Fin cfg1.N) (k : Fin 5) :
    iblk1 V c 2 t (ix2 k (0 : Fin 1)) = V c main_arg5 (ix2 k (0 : Fin 1)) := by
  obtain ⟨-, -, -, -, e4, e5, -⟩ := index_facts t
  show V c main_arg5 (((cfg1.win 2).blk t).view.emb (ix2 k (0 : Fin 1))) = _
  refine congrArg (V c main_arg5) ?_
  funext a; apply Fin.ext
  match a with
  | ⟨0, _⟩ => show win1_2.index t (0 : Fin 2) * 5 + 1 * k.val = k.val; rw [e4]; omega
  | ⟨1, _⟩ => show win1_2.index t (1 : Fin 2) * 1 + 1 * 0 = 0; rw [e5]

/-- Every point's bias block is the 1×1 bias. -/
theorem bias_block (c : Dev nD) (t : Fin cfg1.N) :
    iblk1 V c 3 t (ix2 (0 : Fin 1) (0 : Fin 1)) = V c main_v7 (ix2 (0 : Fin 1) (0 : Fin 1)) := by
  obtain ⟨-, -, -, -, -, -, e6, e7, -⟩ := index_facts t
  show V c main_v7 (((cfg1.win 3).blk t).view.emb (ix2 (0 : Fin 1) (0 : Fin 1))) = _
  refine congrArg (V c main_v7) ?_
  funext a; apply Fin.ext
  match a with
  | ⟨0, _⟩ => show win1_3.index t (0 : Fin 2) * 1 + 1 * 0 = 0; rw [e6]
  | ⟨1, _⟩ => show win1_3.index t (1 : Fin 2) * 1 + 1 * 0 = 0; rw [e7]

/-- What point `t` writes back is block `t` of the array of updates. -/
theorem flushed_eq (c : Dev nD) (t : Fin cfg1.N) :
    (dat1 V c).flushed 4 t = ((cfg1.win 4).blk t).view.read (Elt Ideal)
      (Cert.Spec.updArr (V c main_arg0) (V c main_v6) (V c main_arg5) (V c main_v7 (ix2 (0 : Fin 1) (0 : Fin 1)))) := by
  show (cfg1.win 4).cut (grid1.coords t) ((dat1 V c).after 4 t) = _
  rw [after1_4]
  unfold out1_4
  rw [View.canon_unit_zero zero_offsets]
  simp only [View.ld_unit_zero (S := S4000x4) zero_offsets, View.ld_unit_zero (S := S4000x1) zero_offsets,
    View.ld_unit_zero (S := S5x1) zero_offsets, View.ld_unit_zero (S := S1x1) zero_offsets]
  obtain ⟨-, -, -, -, -, -, -, -, e8, e9⟩ := index_facts t
  funext j
  show k1_pay1 (F := Ideal) (iblk1 V c 0 t) (iblk1 V c 1 t) (iblk1 V c 2 t) (iblk1 V c 3 t) j
    = Cert.Spec.updArr (V c main_arg0) (V c main_v6) (V c main_arg5) (V c main_v7 (ix2 (0 : Fin 1) (0 : Fin 1)))
        (((cfg1.win 4).blk t).view.emb j)
  refine (stored_apply _ _ _ _ j).trans ?_
  unfold Cert.Spec.updArr
  refine congr (congr (congr (congrArg Cert.Spec.nodeUpd ?_) ?_) ?_) ?_
  · funext k
    refine (feat_block V c t _ k).trans (congrArg (V c main_arg0) ?_)
    funext a; apply Fin.ext
    match a with
    | ⟨0, _⟩ =>
      show t.val * 4000 + (j 0).val = win1_4.index t (0 : Fin 2) * 4000 + 1 * (j 0).val
      rw [e8]; omega
    | ⟨1, _⟩ => rfl
  · refine (aggr_block V c t _).trans (congrArg (V c main_v6) ?_)
    funext a; apply Fin.ext
    match a with
    | ⟨0, _⟩ =>
      show t.val * 4000 + (j 0).val = win1_4.index t (0 : Fin 2) * 4000 + 1 * (j 0).val
      rw [e8]; omega
    | ⟨1, _⟩ => rfl
  · funext k
    exact weight_block V c t k
  · exact bias_block V c t

/-- An index of the result array is in point `t`'s block iff each coordinate is in the block's range on its axis. -/
theorem mem_block (t : Fin cfg1.N) (i : S1000000x1.Idx) :
    i ∈ ((cfg1.win 4).blk t).view.set ↔ ∀ a : Fin 2, win1_4.index t a * S4000x1.size a ≤ (i a).val
      ∧ (i a).val < win1_4.index t a * S4000x1.size a + S4000x1.size a := by
  show i ∈ ((View.whole main_v8).slice (win1_4.rect t)).set ↔ _
  rw [View.set_slice_whole, Rect.mem_set_unit]
  exact Iff.rfl

/-- The blocks tile the result array: row `r` is in the block of point `r / 4000`. -/
theorem cover (i : S1000000x1.Idx) :
    ∃ t : Fin cfg1.N, (cfg1.win 4).flush t = true ∧ i ∈ ((cfg1.win 4).blk t).view.set := by
  have hi0 : (i 0).val < 1000000 := (i 0).isLt
  have hi1 : (i 1).val < 1 := (i 1).isLt
  have hN : cfg1.N = 250 := N_1
  refine ⟨⟨(i 0).val / 4000, by rw [hN]; omega⟩, flush1_4 _, ?_⟩
  rw [mem_block]
  obtain ⟨-, -, -, -, -, -, -, -, e8, e9⟩ := index_facts ⟨(i 0).val / 4000, by rw [hN]; omega⟩
  intro a
  match a with
  | ⟨0, _⟩ =>
    show win1_4.index _ (0 : Fin 2) * 4000 ≤ (i 0).val ∧ (i 0).val < win1_4.index _ (0 : Fin 2) * 4000 + 4000
    rw [e8]; show (i 0).val / 4000 * 4000 ≤ (i 0).val ∧ (i 0).val < (i 0).val / 4000 * 4000 + 4000; omega
  | ⟨1, _⟩ =>
    show win1_4.index _ (1 : Fin 2) * 1 ≤ (i 1).val ∧ (i 1).val < win1_4.index _ (1 : Fin 2) * 1 + 1
    rw [e9]; omega

/-- The result array after the region: every node's update, of the arrays as the region finds them. -/
theorem final (c : Dev nD) :
    (dat1 V c).arrAt 4 cfg1.N
      = Cert.Spec.updArr (V c main_arg0) (V c main_v6) (V c main_arg5) (V c main_v7 (ix2 (0 : Fin 1) (0 : Fin 1))) :=
  (dat1 V c).arrAt_eq_of_cover 4 _ (fun t _ => flushed_eq V c t) cover

end Region

end Cert.KernelIdeal.NodeValue

end
-- ==== Proof.KernelValue.lean ====
/-
  The idealized kernel's result as one function of its arguments.

  The program is four segments: a host stretch that lays the message bias out as 1×1; the edge-message region; a host
  stretch that takes the target row of the edge index, spreads it to a column, scatter-adds the messages into a zero
  column of node aggregates, and lays the update bias out as 1×1; the node-update region. The buffer contents at each
  boundary are a fold from the launch memory. Read back through the fold: the edge region finds the attributes, the
  weight column and the bias as launched, so it leaves `Spec.msgArr` of them; the second stretch aggregates exactly that
  array (`aggregate`, the scatter-add never opened); the node region finds the features, those aggregates, its weight
  column and its bias, so the result is `Spec.updArr` of them.
-/
import proofs.«143977_j85306640433889_1_alg».proof.Proof.ValueRun
import proofs.«143977_j85306640433889_1_alg».proof.Proof.EdgeValue
import proofs.«143977_j85306640433889_1_alg».proof.Proof.NodeValue
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.ShloMosaic.StableHlo Idealize.SL.Sem

/-- The aggregation stage: the messages scatter-added into a zero column at the nodes the edge index's second row
    names. One host operation over three layout operations; both programs apply it, so it stays closed. -/
def aggregate (edges : (⟨S2x16000000, .i32⟩ : BufTy).Contents (Elt Ideal)) (msg : (⟨S16000000x1, .f32⟩ : BufTy).Contents (Elt Ideal)) :
    (⟨S1000000x1, .f32⟩ : BufTy).Contents (Elt Ideal) :=
  Host.scatterAdd scatter_S1000000x1_S16000000x1_S16000000x1_1_0_0_1
    (broadcastInDim S1000000x1 ![] bcast_S_S1000000x1 (constant (F := Ideal) S_ .f32 0x00000000#32))
    (broadcastInDim S16000000x1 ![0] bcast_S16000000_S16000000x1_0
      (shapeCast _ (extractStridedSlice S1x16000000 ![1, 0] edges slices_S2x16000000_S1x16000000_1_0) shapeCasts_S1x16000000_S16000000))
    msg

variable (m : (ℓ : Loc nD τ sig) → Buf (Elt Ideal) ℓ) (ρ : Dev nD → PrngReg)

/-- A length-1 vector laid out as 1×1 keeps its entry. -/
theorem laid_out_apply (x : (⟨S1, .f32⟩ : BufTy).Contents (Elt Ideal)) :
    shapeCast S1x1 x shapeCasts_S1_S1x1 (ix2 (0 : Fin 1) (0 : Fin 1)) = x (ix1 (0 : Fin 1)) :=
  shapeCast_apply x shapeCasts_S1_S1x1 (ix2 (0 : Fin 1) (0 : Fin 1)) (ix1 (0 : Fin 1))
    (by rewrite [Shape.rowMajor_val_two, Shape.rowMajor_val_one]; rfl)

/-! ## What the edge-message region finds, and leaves -/

theorem entry0_attr (c : Dev nD) : V1 m ρ c main_arg2 = m ((c : Thread nD τ).loc main_arg2) := by
  show StableHlo.after hostOps0 (W0 m ρ c) (Proc.devRef .tc main_arg2) = _
  after_results <;> rfl
theorem entry0_weight (c : Dev nD) : V1 m ρ c main_arg3 = m ((c : Thread nD τ).loc main_arg3) := by
  show StableHlo.after hostOps0 (W0 m ρ c) (Proc.devRef .tc main_arg3) = _
  after_results <;> rfl
theorem entry0_bias (c : Dev nD) :
    V1 m ρ c main_v0 (ix2 (0 : Fin 1) (0 : Fin 1)) = m ((c : Thread nD τ).loc main_arg4) (ix1 (0 : Fin 1)) := by
  have e : V1 m ρ c main_v0 = shapeCast S1x1 (m ((c : Thread nD τ).loc main_arg4)) shapeCasts_S1_S1x1 := by
    show StableHlo.after hostOps0 (W0 m ρ c) (Proc.devRef .tc main_v0) = _
    after_results
    rfl
  rw [e, laid_out_apply]

/-- After the edge-message region the message buffer holds every edge's message, of the arguments as launched. -/
theorem messages (c : Dev nD) :
    W2 m ρ c (Proc.devRef .tc main_v1)
      = Cert.Spec.msgArr (m ((c : Thread nD τ).loc main_arg2)) (m ((c : Thread nD τ).loc main_arg3))
          (m ((c : Thread nD τ).loc main_arg4) (ix1 (0 : Fin 1))) := by
  refine (W2_arr m ρ c 3).trans ((Cert.KernelIdeal.EdgeValue.final (V1 m ρ) c).trans ?_)
  rw [entry0_attr, entry0_weight, entry0_bias]

/-- A buffer neither host stretch nor the edge region writes holds, after that region, what was launched. -/
theorem kept2_edges (c : Dev nD) : W2 m ρ c (Proc.devRef .tc main_arg1) = m ((c : Thread nD τ).loc main_arg1) := by
  refine (W2_of_ne m ρ c main_arg1 (by decide)).trans ?_
  show StableHlo.after hostOps0 (W0 m ρ c) (Proc.devRef .tc main_arg1) = _
  after_results <;> rfl
theorem kept2_feat (c : Dev nD) : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  after_results <;> rfl
theorem kept2_weight (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results <;> rfl
theorem kept2_bias (c : Dev nD) : W2 m ρ c (Proc.devRef .tc main_arg6) = m ((c : Thread nD τ).loc main_arg6) := by
  refine (W2_of_ne m ρ c main_arg6 (by decide)).trans ?_
  show StableHlo.after hostOps0 (W0 m ρ c) (Proc.devRef .tc main_arg6) = _
  after_results <;> rfl

/-! ## What the node-update region finds, and leaves -/

theorem entry1_feat (c : Dev nD) : V3 m ρ c main_arg0 = m ((c : Thread nD τ).loc main_arg0) := by
  show StableHlo.after hostOps1 (W2 m ρ c) (Proc.devRef .tc main_arg0) = _
  after_results
  exact kept2_feat m ρ c
theorem entry1_weight (c : Dev nD) : V3 m ρ c main_arg5 = m ((c : Thread nD τ).loc main_arg5) := by
  show StableHlo.after hostOps1 (W2 m ρ c) (Proc.devRef .tc main_arg5) = _
  after_results
  exact kept2_weight m ρ c
theorem entry1_bias (c : Dev nD) :
    V3 m ρ c main_v7 (ix2 (0 : Fin 1) (0 : Fin 1)) = m ((c : Thread nD τ).loc main_arg6) (ix1 (0 : Fin 1)) := by
  have e : V3 m ρ c main_v7 = shapeCast S1x1 (m ((c : Thread nD τ).loc main_arg6)) shapeCasts_S1_S1x1 := by
    show StableHlo.after hostOps1 (W2 m ρ c) (Proc.devRef .tc main_v7) = _
    after_results
    rw [kept2_bias]
    rfl
  rw [e, laid_out_apply]
theorem entry1_aggr (c : Dev nD) :
    V3 m ρ c main_v6 = aggregate (m ((c : Thread nD τ).loc main_arg1))
      (Cert.Spec.msgArr (m ((c : Thread nD τ).loc main_arg2)) (m ((c : Thread nD τ).loc main_arg3))
        (m ((c : Thread nD τ).loc main_arg4) (ix1 (0 : Fin 1)))) := by
  show StableHlo.after hostOps1 (W2 m ρ c) (Proc.devRef .tc main_v6) = _
  after_results
  rw [kept2_edges, messages]
  rfl

/-- After the node-update region the result buffer holds every node's update. -/
theorem result (c : Dev nD) :
    W4 m ρ c (Proc.devRef .tc main_v8)
      = Cert.Spec.updArr (m ((c : Thread nD τ).loc main_arg0))
          (aggregate (m ((c : Thread nD τ).loc main_arg1))
            (Cert.Spec.msgArr (m ((c : Thread nD τ).loc main_arg2)) (m ((c : Thread nD τ).loc main_arg3))
              (m ((c : Thread nD τ).loc main_arg4) (ix1 (0 : Fin 1)))))
          (m ((c : Thread nD τ).loc main_arg5)) (m ((c : Thread nD τ).loc main_arg6) (ix1 (0 : Fin 1))) := by
  refine (W4_arr m ρ c 4).trans ((Cert.KernelIdeal.NodeValue.final (V3 m ρ) c).trans ?_)
  rw [entry1_feat, entry1_aggr, entry1_weight, entry1_bias]

/-! ## The run, read -/

/-- Every weakly fair execution of the idealized kernel terminates, nothing faulting, with the result at the array of
    node updates of the launched arguments, and the arguments unchanged. -/
theorem run : θ_run defs (onTc (τ := τ) (main (F := Ideal))) ⟨m, fun _ => 0, ρ⟩ (fun r => ∀ c : Dev nD,
      r.2.mem ((c.tc : Thread nD τ).loc main_v8)
        = Cert.Spec.updArr (m ((c : Thread nD τ).loc main_arg0))
            (aggregate (m ((c : Thread nD τ).loc main_arg1))
              (Cert.Spec.msgArr (m ((c : Thread nD τ).loc main_arg2)) (m ((c : Thread nD τ).loc main_arg3))
                (m ((c : Thread nD τ).loc main_arg4) (ix1 (0 : Fin 1)))))
            (m ((c : Thread nD τ).loc main_arg5)) (m ((c : Thread nD τ).loc main_arg6) (ix1 (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result m ρ c), (h c).2⟩) (Cert.KernelIdeal.ValueRun.run m ρ)

end Cert.KernelIdeal.KernelValue

end
-- ==== Proof.RefValue.lean ====
/-
  The reference, read entry by entry at the extended reals.

  Its message stage (a product of the attributes with the weight column, plus the broadcast bias) is the array of
  edge messages `Spec.msgArr`; its last stage is the array of node updates `Spec.updArr` of the features and of
  whatever the scatter-add stage holds. The scatter-add itself is carried along unopened. The only stage read by hand
  is the joined row: entries 0–3 of row `n` come from the features, entry 4 from the scaled aggregate.
-/
import proofs.«143977_j85306640433889_1_alg».proof.Proof.Gen.ReferenceIdeal.Run
import proofs.«143977_j85306640433889_1_alg».proof.Proof.Gen.ReferenceIdeal.Read
import proofs.«143977_j85306640433889_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open scoped BigOperators

/-- The message stage is the array of edge messages. -/
theorem msg_eq (x2 : (⟨S16000000x3, .f32⟩ : BufTy).Contents (Elt Ideal)) (x3 : (⟨S3x1, .f32⟩ : BufTy).Contents (Elt Ideal))
    (x4 : (⟨S1, .f32⟩ : BufTy).Contents (Elt Ideal)) :
    val_main_v3 (F := Ideal) x2 x3 x4 = Cert.Spec.msgArr x2 x3 (x4 (ix1 (0 : Fin 1))) := by
  funext i
  rw [val_main_v3_apply, val_main_v0_apply, val_main_v2_apply, val_main_v1_apply]
  unfold Cert.Spec.msgArr Cert.Spec.edgeMsg
  have el : ∀ k : Fin 3, lidx_main_v0 i k = ix2 (⟨(i 0).val, (i 0).isLt⟩ : Fin 16000000) k := fun k =>
    funext fun a => Fin.ext (by match a with | ⟨0, _⟩ => rfl | ⟨1, _⟩ => rfl)
  have er : ∀ k : Fin 3, ridx_main_v0 i k = ix2 k (0 : Fin 1) := fun k =>
    funext fun a => Fin.ext (by
      match a with
      | ⟨0, _⟩ => rfl
      | ⟨1, _⟩ => show (i 1).val = 0; have h1 : (i 1).val < 1 := (i 1).isLt; omega)
  have eb : idx_main_v1 (idx_main_v2 i) = ix1 (0 : Fin 1) :=
    funext fun a => Fin.ext (by match a with | ⟨0, _⟩ => rfl)
  simp only [el, er, eb]
  rfl

/-- The joined row at `(n, k)`: a feature for `k < 4`, the aggregate times the fourth feature at `k = 4`. -/
theorem joined_apply (x0 : (⟨S1000000x4, .f32⟩ : BufTy).Contents (Elt Ideal)) (x1 : (⟨S2x16000000, .i32⟩ : BufTy).Contents (Elt Ideal))
    (x2 : (⟨S16000000x3, .f32⟩ : BufTy).Contents (Elt Ideal)) (x3 : (⟨S3x1, .f32⟩ : BufTy).Contents (Elt Ideal))
    (x4 : (⟨S1, .f32⟩ : BufTy).Contents (Elt Ideal)) (n : Fin 1000000) (k : Fin 5) :
    val_main_v11 (F := Ideal) x0 x1 x2 x3 x4 (ix2 n k)
      = Cert.Spec.joined (fun j => x0 (ix2 n j)) (val_main_v8 (F := Ideal) x1 x2 x3 x4 (ix2 n (0 : Fin 1))) k := by
  unfold val_main_v11 Cert.Spec.joined
  by_cases hk : k.val < 4
  · rw [dif_pos hk]
    exact concatenate_pair_apply_left (1 : Fin S1000000x5.rank) x0 _ concatenates_S1000000x4_S1000000x1_S1000000x5_d1
      (ix2 n k) rfl (ix2 n (⟨k.val, hk⟩ : Fin 4)) (fun b => by match b with | ⟨0, _⟩ => rfl | ⟨1, _⟩ => rfl)
  · rw [dif_neg hk]
    have hk4 : k.val = 4 := by have := k.isLt; omega
    refine (concatenate_pair_apply_right (1 : Fin S1000000x5.rank) x0 _ concatenates_S1000000x4_S1000000x1_S1000000x5_d1
      (ix2 n k) rfl rfl (ix2 n (0 : Fin 1)) (fun b hb => by
        match b with
        | ⟨0, _⟩ => rfl
        | ⟨1, _⟩ => exact absurd rfl hb) (by show 0 + 4 = k.val; omega)).trans ?_
    rw [val_main_v10_apply, val_main_v9_apply]
    show _ * _ = _ * _
    refine congrArg _ (congrArg x0 ?_)
    funext a
    apply Fin.ext
    match a with
    | ⟨0, _⟩ => rfl
    | ⟨1, _⟩ => rfl

/-- The last stage is the array of node updates, of the features and the scatter-add stage. -/
theorem upd_eq (x0 : (⟨S1000000x4, .f32⟩ : BufTy).Contents (Elt Ideal)) (x1 : (⟨S2x16000000, .i32⟩ : BufTy).Contents (Elt Ideal))
    (x2 : (⟨S16000000x3, .f32⟩ : BufTy).Contents (Elt Ideal)) (x3 : (⟨S3x1, .f32⟩ : BufTy).Contents (Elt Ideal))
    (x4 : (⟨S1, .f32⟩ : BufTy).Contents (Elt Ideal)) (x5 : (⟨S5x1, .f32⟩ : BufTy).Contents (Elt Ideal))
    (x6 : (⟨S1, .f32⟩ : BufTy).Contents (Elt Ideal)) :
    val_main_v17 (F := Ideal) x0 x1 x2 x3 x4 x5 x6
      = Cert.Spec.updArr x0 (val_main_v8 (F := Ideal) x1 x2 x3 x4) x5 (x6 (ix1 (0 : Fin 1))) := by
  funext i
  rw [val_main_v17_apply, val_main_v16_apply, val_main_v15_apply, val_main_v12_apply, val_main_v14_apply, val_main_v13_apply]
  unfold Cert.Spec.updArr Cert.Spec.nodeUpd
  have e0 : idx_main_v16 i = ix2 (⟨(i 0).val, (i 0).isLt⟩ : Fin 1000000) (0 : Fin 4) :=
    funext fun a => Fin.ext (by
      match a with
      | ⟨0, _⟩ => rfl
      | ⟨1, _⟩ => show (i 1).val = 0; have h1 : (i 1).val < 1 := (i 1).isLt; omega)
  have el : ∀ k : Fin 5, lidx_main_v12 i k = ix2 (⟨(i 0).val, (i 0).isLt⟩ : Fin 1000000) k := fun k =>
    funext fun a => Fin.ext (by match a with | ⟨0, _⟩ => rfl | ⟨1, _⟩ => rfl)
  have er : ∀ k : Fin 5, ridx_main_v12 i k = ix2 k (0 : Fin 1) := fun k =>
    funext fun a => Fin.ext (by
      match a with
      | ⟨0, _⟩ => rfl
      | ⟨1, _⟩ => show (i 1).val = 0; have h1 : (i 1).val < 1 := (i 1).isLt; omega)
  have eb : idx_main_v13 (idx_main_v14 i) = ix1 (0 : Fin 1) :=
    funext fun a => Fin.ext (by match a with | ⟨0, _⟩ => rfl)
  simp only [e0, el, er, eb, joined_apply]
  rfl

end Cert.ReferenceIdeal.RefValue

end
-- ==== Proof.lean ====
/-
  The kernel computes one step of message passing on a graph: every edge's message is an inner product of its three
  attributes with a weight column plus a bias; every node adds up the messages of the edges pointing at it; every
  node's result is its first feature plus an inner product of five entries (its four features and its aggregate scaled
  by the fourth feature) with a weight column plus a bias. The reference states the same with whole-array operations.

  Over the extended reals both programs end with the same array, entry by entry: the kernel's two regions leave
  `Spec.msgArr` and `Spec.updArr` (the blocks of each region tile its output and every block is the same function of
  rows of the inputs), the reference's stages are those two functions, and the aggregation between them is one and the
  same host operation in both programs, applied to equal messages. No algebraic law is needed beyond reading a
  matrix product as a finite sum, so the inputs' finiteness is never used. The kernel's rewriting to its idealized
  form changed no operation, so that claim is trivial.
-/
import proofs.«143977_j85306640433889_1_alg».proof.Defs
import proofs.«143977_j85306640433889_1_alg».proof.Proof.Gen.Kernel
import proofs.«143977_j85306640433889_1_alg».proof.Proof.Gen.Kernel.Skeleton
import proofs.«143977_j85306640433889_1_alg».proof.Proof.Gen.Kernel.Launch
import proofs.«143977_j85306640433889_1_alg».proof.Proof.Gen.Kernel.Points
import proofs.«143977_j85306640433889_1_alg».proof.Proof.Gen.Kernel.Frame
import proofs.«143977_j85306640433889_1_alg».proof.Proof.Gen.KernelIdeal
import proofs.«143977_j85306640433889_1_alg».proof.Proof.Gen.KernelIdeal.Skeleton
import proofs.«143977_j85306640433889_1_alg».proof.Proof.Gen.KernelIdeal.Launch
import proofs.«143977_j85306640433889_1_alg».proof.Proof.Gen.KernelIdeal.Points
import proofs.«143977_j85306640433889_1_alg».proof.Proof.Gen.KernelIdeal.Frame
import proofs.«143977_j85306640433889_1_alg».proof.Proof.Gen.ReferenceIdeal
import proofs.«143977_j85306640433889_1_alg».proof.Proof.Gen.Pre_finite_inputs
import proofs.«143977_j85306640433889_1_alg».proof.Proof.KernelValue
import proofs.«143977_j85306640433889_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's scatter-add stage is the kernel program's aggregation of the reference's messages: the same
    host operation over the same three layout operations of the edge index. -/
theorem aggregation_shared (x1 : (⟨Cert.ReferenceIdeal.S2x16000000, .i32⟩ : BufTy).Contents (Elt Ideal))
    (x2 : (⟨Cert.ReferenceIdeal.S16000000x3, .f32⟩ : BufTy).Contents (Elt Ideal))
    (x3 : (⟨Cert.ReferenceIdeal.S3x1, .f32⟩ : BufTy).Contents (Elt Ideal))
    (x4 : (⟨Cert.ReferenceIdeal.S1, .f32⟩ : BufTy).Contents (Elt Ideal)) :
    Cert.ReferenceIdeal.Read.val_main_v8 (F := Ideal) x1 x2 x3 x4
      = Cert.KernelIdeal.KernelValue.aggregate x1 (Cert.ReferenceIdeal.Read.val_main_v3 (F := Ideal) x2 x3 x4) := rfl

/-- Both idealized programs, from memories that agree on the arguments, end with the array of node updates. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.upd_eq, aggregation_shared,
    Cert.ReferenceIdeal.RefValue.msg_eq]
  obtain ⟨h0, h1, h2, h3, h4, h5, h6⟩ := hagree c
  rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
